-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096 : Shape := ⟨2, ![8, 4096]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel

variable [Facts]

def fn {F : FTy → Type} [FloatOps F] (main_arg0 : FVec F S8x4096x1024 .f32) (main_arg1 : IVec S8x4096 32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  main_v3
-- ==== Kernel.lean ====
abbrev S8x4096x1024 : Shape := ⟨3, ![8, 4096, 1024]⟩
abbrev S8x4096 : Shape := ⟨2, ![8, 4096]⟩
abbrev S32768x1024 : Shape := ⟨2, ![32768, 1024]⟩
abbrev S1024x1024 : Shape := ⟨2, ![1024, 1024]⟩
abbrev S_ : Shape := ⟨0, ![]⟩
abbrev S32768 : Shape := ⟨1, ![32768]⟩
abbrev S8x1 : Shape := ⟨2, ![8, 1]⟩
abbrev S8 : Shape := ⟨1, ![8]⟩

abbrev nBuf : Space → Nat
  | .hbm => 28
  | .vmem => 4
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S32768x1024, .f32⟩
  | .hbm, ⟨3, _⟩ => ⟨S32768x1024, .f32⟩
  | .hbm, ⟨4, _⟩ => ⟨S_, .i32⟩
  | .hbm, ⟨5, _⟩ => ⟨S8x4096, .i32⟩
  | .hbm, ⟨6, _⟩ => ⟨S8x4096, .i1⟩
  | .hbm, ⟨7, _⟩ => ⟨S8x4096, .i32⟩
  | .hbm, ⟨8, _⟩ => ⟨S32768, .i32⟩
  | .hbm, ⟨9, _⟩ => ⟨S_, .i32⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S8x1, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S8, .i32⟩
  | .hbm, ⟨19, _⟩ => ⟨S_, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8x4096, .i32⟩
  | .hbm, ⟨24, _⟩ => ⟨S8x1, .i32⟩
  | .hbm, ⟨25, _⟩ => ⟨S8x4096, .i32⟩
  | .hbm, ⟨26, _⟩ => ⟨S8x4096, .i32⟩
  | .hbm, ⟨27, _⟩ => ⟨S32768, .i32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_call0_c : Ref sig .tc := ⟨.hbm, 9, rfl⟩
abbrev main_call0_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call1_call0_c : Ref sig .tc := ⟨.hbm, 19, rfl⟩
abbrev main_call1_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x4096x1024_S32768x1024 : S8x4096x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bcast_S_S8x4096 : S_.BroadcastsInDim S8x4096 (![] : Fin 0 → Fin S8x4096.rank)
  natLt_1_32 : 1 < 32
  shapeCasts_S8x4096_S32768 : S8x4096.ShapeCasts S32768
  bcast_S_S_ : S_.BroadcastsInDim S_ (![] : Fin 0 → Fin S_.rank)
  reduceWindows_S32768_S32768_w32768s1p32767_0 : S32768.ReduceWindows (![32768] : Fin 1 → Nat) ![1] ![32767] ![0] S32768
  h_S_ : 0 < S_.numel
  slices_S8x4096_S8x1_0_4095 : S8x4096.Slices ![0, 4095] S8x1
  shapeCasts_S8x1_S8 : S8x1.ShapeCasts S8
  bcast_S_S8 : S_.BroadcastsInDim S8 (![] : Fin 0 → Fin S8.rank)
  reduceWindows_S8_S8_w8s1p7_0 : S8.ReduceWindows (![8] : Fin 1 → Nat) ![1] ![7] ![0] S8
  shapeCasts_S32768_S8x4096 : S32768.ShapeCasts S8x4096
  bcast_S8_S8x1_0 : S8.BroadcastsInDim S8x1 (![0] : Fin 1 → Fin S8x1.rank)
  bcast_S8x1_S8x4096_0_1 : S8x1.BroadcastsInDim S8x4096 (![0, 1] : Fin 2 → Fin S8x4096.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S32768x1024.size a
  hwx0_1 : ∀ i : grid0.Coords, EltTy.bits .f32 = 32 ∨ (Rect.block (s := S32768x1024) S1024x1024.size (cc0_transform_1 i) (hinb0_1 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x4096 : Shape := ⟨2, ![8, 4096]⟩
abbrev S32768x1024 : Shape := ⟨2, ![32768, 1024]⟩
abbrev S_ : Shape := ⟨0, ![]⟩
abbrev S32768 : Shape := ⟨1, ![32768]⟩
abbrev S8x1 : Shape := ⟨2, ![8, 1]⟩
abbrev S8 : Shape := ⟨1, ![8]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S32768x1024, .f32⟩
  | .hbm, ⟨3, _⟩ => ⟨S_, .i32⟩
  | .hbm, ⟨4, _⟩ => ⟨S8x4096, .i32⟩
  | .hbm, ⟨5, _⟩ => ⟨S8x4096, .i1⟩
  | .hbm, ⟨6, _⟩ => ⟨S8x4096, .i32⟩
  | .hbm, ⟨7, _⟩ => ⟨S32768, .i32⟩
  | .hbm, ⟨8, _⟩ => ⟨S_, .i32⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S8x1, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i1⟩
  | .hbm, ⟨17, _⟩ => ⟨S8, .i32⟩
  | .hbm, ⟨18, _⟩ => ⟨S_, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S8x4096, .i32⟩
  | .hbm, ⟨23, _⟩ => ⟨S8x1, .i32⟩
  | .hbm, ⟨24, _⟩ => ⟨S8x4096, .i32⟩
  | .hbm, ⟨25, _⟩ => ⟨S8x4096, .i32⟩
  | .hbm, ⟨26, _⟩ => ⟨S32768, .i32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_call0_c : Ref sig .tc := ⟨.hbm, 8, rfl⟩
abbrev main_call0_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call1_call0_c : Ref sig .tc := ⟨.hbm, 18, rfl⟩
abbrev main_call1_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  shapeCasts_S8x4096x1024_S32768x1024 : S8x4096x1024.ShapeCasts S32768x1024
  bcast_S_S8x4096 : S_.BroadcastsInDim S8x4096 (![] : Fin 0 → Fin S8x4096.rank)
  natLt_1_32 : 1 < 32
  shapeCasts_S8x4096_S32768 : S8x4096.ShapeCasts S32768
  bcast_S_S_ : S_.BroadcastsInDim S_ (![] : Fin 0 → Fin S_.rank)
  reduceWindows_S32768_S32768_w32768s1p32767_0 : S32768.ReduceWindows (![32768] : Fin 1 → Nat) ![1] ![32767] ![0] S32768
  h_S_ : 0 < S_.numel
  slices_S8x4096_S8x1_0_4095 : S8x4096.Slices ![0, 4095] S8x1
  shapeCasts_S8x1_S8 : S8x1.ShapeCasts S8
  bcast_S_S8 : S_.BroadcastsInDim S8 (![] : Fin 0 → Fin S8.rank)
  reduceWindows_S8_S8_w8s1p7_0 : S8.ReduceWindows (![8] : Fin 1 → Nat) ![1] ![7] ![0] S8
  shapeCasts_S32768_S8x4096 : S32768.ShapeCasts S8x4096
  bcast_S8_S8x1_0 : S8.BroadcastsInDim S8x1 (![0] : Fin 1 → Fin S8x1.rank)
  bcast_S8x1_S8x4096_0_1 : S8x1.BroadcastsInDim S8x4096 (![0, 1] : Fin 2 → Fin S8x4096.rank)

variable [Facts₀]

class Facts : Prop extends Facts₀ where

variable [Facts]
-- ==== Proof.Spec.lean ====
/-
  What the two results are, as functions of the two arguments, stated once over literal shapes.

  First result: the [8, 4096, 1024] array of features read in row-major order as 32768 rows of 1024.

  Second result: a segment id per flat token position. A position whose label is 0 closes a segment, so the id
  of position p is the number of closing positions strictly before p — the inclusive running sum of the 0/1
  indicator, less the indicator itself — plus, for a position in example b, the number of examples before b whose
  last label is 1 (again an inclusive running sum less its own term). The running sums are the windowed
  reductions `jnp.cumsum` is written as: a window as long as the axis, padded on the low side by one less.
  All of it is 32-bit integer arithmetic, the same at every float instance.
-/
import Idealize.ShloMosaic.PureOps

noncomputable section

namespace Cert.Spec

open Idealize.ShloMosaic

/-- Features: example × position × channel. -/
abbrev Cube : Shape := ⟨3, ![8, 4096, 1024]⟩
/-- Features: flat position × channel. -/
abbrev Rows : Shape := ⟨2, ![32768, 1024]⟩
/-- Labels: example × position. -/
abbrev Tok : Shape := ⟨2, ![8, 4096]⟩
/-- One entry per flat position. -/
abbrev Flat : Shape := ⟨1, ![32768]⟩
/-- One entry per example. -/
abbrev Ex : Shape := ⟨1, ![8]⟩
/-- One entry per example, as a column. -/
abbrev ExCol : Shape := ⟨2, ![8, 1]⟩
/-- A single entry. -/
abbrev One : Shape := ⟨0, ![]⟩

theorem cube_rows : Cube.ShapeCasts Rows := by decide
theorem tok_flat : Tok.ShapeCasts Flat := by decide
theorem flat_tok : Flat.ShapeCasts Tok := by decide
theorem excol_ex : ExCol.ShapeCasts Ex := by decide
theorem one_tok : One.BroadcastsInDim Tok (![] : Fin 0 → Fin Tok.rank) := by decide
theorem one_ex : One.BroadcastsInDim Ex (![] : Fin 0 → Fin Ex.rank) := by decide
theorem one_one : One.BroadcastsInDim One (![] : Fin 0 → Fin One.rank) := by decide
theorem ex_excol : Ex.BroadcastsInDim ExCol (![0] : Fin 1 → Fin ExCol.rank) := by decide
theorem excol_tok : ExCol.BroadcastsInDim Tok (![0, 1] : Fin 2 → Fin Tok.rank) := by decide
theorem last_col : Tok.Slices ![0, 4095] ExCol := by decide
theorem run_flat : Flat.ReduceWindows (![32768] : Fin 1 → Nat) ![1] ![32767] ![0] Flat := by decide
theorem run_ex : Ex.ReduceWindows (![8] : Fin 1 → Nat) ![1] ![7] ![0] Ex := by decide
theorem one_pos : 0 < One.numel := by decide
theorem bit_lt : 1 < 32 := by decide

/-- The features as rows: entry (8·4096-flattened position, channel) of the cube. -/
def rows {α : Type} (x : Cube.Idx → α) : Rows.Idx → α := shapeCast Rows x cube_rows

/-- The zero the running sums start from. -/
def zero : IVec One 32 := broadcastInDim One ![] one_one (constantI One 32 0#32)

/-- 1 at a flat position whose label is 0 (it closes a segment), else 0. -/
def closes (labels : IVec Tok 32) : IVec Flat 32 :=
  shapeCast Flat (extui 32 (cmpi .eq labels (broadcastInDim Tok ![] one_tok (constantI One 32 0#32))) bit_lt) tok_flat

/-- The number of closing positions strictly before each flat position. -/
def before (labels : IVec Tok 32) : IVec Flat 32 :=
  subi (Host.reduceWindow IntOp.addi ![32768] ![1] ![32767] ![0] (closes labels) zero run_flat one_pos) (closes labels)

/-- 1 for an example whose last label is 1, else 0. -/
def trailing (labels : IVec Tok 32) : IVec Ex 32 :=
  extui 32 (cmpi .eq (shapeCast Ex (extractStridedSlice ExCol ![0, 4095] labels last_col) excol_ex)
    (broadcastInDim Ex ![] one_ex (constantI One 32 1#32))) bit_lt

/-- The number of earlier examples whose last label is 1. -/
def carried (labels : IVec Tok 32) : IVec Ex 32 :=
  subi (Host.reduceWindow IntOp.addi ![8] ![1] ![7] ![0] (trailing labels) zero run_ex one_pos) (trailing labels)

/-- The segment id of each flat position. -/
def segmentIds (labels : IVec Tok 32) : IVec Flat 32 :=
  shapeCast Flat (addi (shapeCast Tok (before labels) flat_tok)
    (broadcastInDim Tok ![0, 1] excol_tok (broadcastInDim ExCol ![0] ex_excol (carried labels)))) tok_flat

end Cert.Spec

end
-- ==== Proof.KernelBlocks.lean ====
/-
  The kernel's first result, block by block. The region copies its input array to its output array in 32
  blocks of 1024 rows: at grid point t both windows sit on rows 1024·t … 1024·t + 1023 and all 1024 columns,
  the body stores what it loaded (a shape cast to the same shape), so what point t writes back is block t of
  the input array, and the 32 blocks tile the 32768 rows. Hence the output array ends holding the input array,
  which the one host operation before the region made: the features read as rows.
-/
import proofs.«120818_j79723182949008_1_alg».proof.Proof.Gen.KernelIdeal.Frame
import proofs.«120818_j79723182949008_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

/-- The body stores what it loaded: a shape cast between equal shapes is the identity. -/
theorem stored_eq_loaded (x0 : Vec F S1024x1024 .f32) : k0_pay1 x0 = x0 := by
  unfold k0_pay1
  exact shapeCast_self x0 _

/-- Both windows' index maps send grid point t to block (t, 0). -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The region finds its input array holding the features read as rows. -/
theorem input_rows (c : Dev nD) :
    (V m c main_v0 : S32768x1024.Idx → Elt F .f32) = Spec.rows (m ((c : Thread nD τ).loc main_arg0)) := by
  show StableHlo.after hostOps0 (fun b => m (c, b)) (Proc.devRef .tc main_v0) = _
  after_results
  rfl

/-- What point t writes back is block t of the input array. -/
theorem written_back (c : Dev nD) (t : Fin cfg0.N) :
    (dats m 0 c).flushed 1 t = ((cfg0.win 1).blk t).view.read (Elt F) (V m c main_v0) := by
  show (cfg0.win 1).cut (grid0.coords t) ((dats m 0 c).after 1 t) = _
  rw [after0_1]
  unfold out0_1
  rw [View.canon_unit_zero origin]
  simp only [View.ld_unit_zero (S := S1024x1024) origin]
  rw [stored_eq_loaded]
  obtain ⟨e0, e1, e2, e3⟩ := block_index t
  funext j
  show V m c main_v0 (((cfg0.win 0).blk t).view.emb j) = V m c main_v0 (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 1024 + 1 * (j 0).val = win0_1.index t (0 : Fin 2) * 1024 + 1 * (j 0).val; omega
    | ⟨1, _⟩ => show win0_0.index t (1 : Fin 2) * 1024 + 1 * (j 1).val = win0_1.index t (1 : Fin 2) * 1024 + 1 * (j 1).val; omega
  rw [h0]

/-- An index of the output array is in point t's block iff each coordinate is in the block's range on its axis. -/
theorem mem_block (t : Fin cfg0.N) (i : S32768x1024.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v1).slice (win0_1.rect t)).set ↔ _
  rw [View.set_slice_whole, Rect.mem_set_unit]
  exact Iff.rfl

/-- Row r lies in the block of point r / 1024: the 32 blocks tile the array. -/
theorem tiled (i : S32768x1024.Idx) :
    ∃ t : Fin cfg0.N, (cfg0.win 1).flush t = true ∧ i ∈ ((cfg0.win 1).blk t).view.set := by
  have hi0 : (i 0).val < 32768 := (i 0).isLt
  have hi1 : (i 1).val < 1024 := (i 1).isLt
  have hN : cfg0.N = 32 := N_0
  let t : Fin cfg0.N := ⟨(i 0).val / 1024, by rw [hN]; omega⟩
  obtain ⟨e0, e1, e2, e3⟩ := block_index t
  have e2' : win0_1.index t (0 : Fin 2) = (i 0).val / 1024 := e2
  refine ⟨t, flush0_1 t, ?_⟩
  rw [mem_block]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 1024 ≤ (i 1).val ∧ (i 1).val < win0_1.index t (1 : Fin 2) * 1024 + 1024; omega

/-- The output array after the run: the features read as rows. -/
theorem output_rows (c : Dev nD) :
    (dats m 0 c).arrAt 1 cfg0.N = Spec.rows (m ((c : Thread nD τ).loc main_arg0)) :=
  ((dats m 0 c).arrAt_eq_of_cover 1 (V m c main_v0) (fun t _ => written_back m c t) tiled).trans (input_rows m c)

end Cert.KernelIdeal.Hand

end
-- ==== Proof.KernelRun.lean ====
/-
  The kernel program's run, read. After the region, @main computes the segment ids from the labels alone: the
  host operations after the region read the label argument, which is no array of the pipeline and which no
  operation writes, so their fold over what the region leaves is `Spec.segmentIds` of the labels as launched.
  With the output array of the region (the features read as rows) this gives both results as the specification's
  functions of the arguments.
-/
import proofs.«120818_j79723182949008_1_alg».proof.Proof.KernelBlocks

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.StableHlo

variable {F : FTy → Type} [FloatOps F]
variable (m : (ℓ : Loc nD τ sig) → Buf (Elt F) ℓ) (ρ : Dev nD → PrngReg)

attribute [local irreducible] Host.reduceWindow in
/-- The operations after the region, over ANY contents `W` of the buffers: the second result buffer ends at the
    segment ids of whatever `W` holds at the label argument. The windowed sums stay folded. -/
theorem ids_of_labels (W : Valuation τ sig (Elt F)) :
    (after (List.flatten [hostOps1, hostOps1_1, hostOps1_2, hostOps1_3, hostOps1_4]) W (Proc.devRef .tc main_v19) : S32768.Idx → BitVec 32)
      = Spec.segmentIds (W (Proc.devRef .tc main_arg1)) := by
  simp only [hostOps1, hostOps1_1, hostOps1_2, hostOps1_3, hostOps1_4, List.flatten_cons, List.flatten_nil, List.append_nil,
    List.cons_append, List.nil_append]
  after_results
  simp only [TRef.ofBuf, TRef.toBuf, cast_eq]
  rfl

/-- After the region and the operations that follow it, the second result buffer holds the segment ids of the
    labels as launched: the label argument is no array of the pipeline, and is as launched at the region's entry. -/
theorem tail_ids (c : Dev nD) :
    (Pipeline.afterTail₀ cfgs (dats m) 0 (V0 m) [hostOps1, hostOps1_1, hostOps1_2, hostOps1_3, hostOps1_4] c main_v19 : S32768.Idx → BitVec 32)
      = Spec.segmentIds (m ((c : Thread nD τ).loc main_arg1)) := by
  unfold Pipeline.afterTail₀
  rw [ids_of_labels, Pipeline.withArrays_of_ne _ c (V0 m c) _ main_arg1 (by exact (by decide : ∀ w, Pipeline.arrRef spec0 w ≠ main_arg1))]
  exact congrArg Spec.segmentIds (V_main_arg1 m c)

/-- The kernel program's run: both results as the specification's functions of the launched arguments, the
    arguments unchanged. -/
theorem run : θ_run defs (onTc (τ := τ) (main (F := F))) ⟨m, fun _ => 0, ρ⟩ fun r => ∀ c : Dev nD,
      r.2.mem ((c.tc : Thread nD τ).loc main_v1) = Spec.rows (m ((c.tc : Thread nD τ).loc main_arg0))
      ∧ r.2.mem ((c.tc : Thread nD τ).loc main_v19) = Spec.segmentIds (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).1 1).trans (output_rows m c),
        ((h c).2 main_v19 (Pipeline.mem_restRefs_of main_v19 (by decide) (by decide))).trans (tail_ids m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Hand

end
-- ==== Proof.RefRun.lean ====
/-
  The reference program's run. Its @main is a straight line of host operations once the two calls of the
  running-sum function are unfolded at their call sites (each call: the zero, its rank-zero broadcast, the
  windowed sum). Every weakly fair execution terminates with each buffer at the fold of those operations
  over the launch contents; read at the two result buffers the fold is `Spec.rows` of the features and
  `Spec.segmentIds` of the labels, and at the two argument buffers it is what was launched.
-/
import proofs.«120818_j79723182949008_1_alg».proof.Proof.Gen.ReferenceIdeal
import proofs.«120818_j79723182949008_1_alg».proof.Proof.Spec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two running-sum calls unfolded into their callee's three operations
    over the call's own buffers. -/
abbrev ops : List (HloOp τ sig (Elt F)) :=
  [ reshape main_arg0 main_v0 rfl shapeCasts_S8x4096x1024_S32768x1024,
    nullary main_c (constantI S_ 32 0#32),
    unary main_c main_v1 (broadcastInDim S8x4096 ![] bcast_S_S8x4096 : (⟨S_, .i32⟩ : BufTy).Contents (Elt F) → (⟨S8x4096, .i32⟩ : BufTy).Contents (Elt F)),
    binary main_arg1 main_v1 main_v2 (cmpi .eq : (⟨S8x4096, .i32⟩ : BufTy).Contents (Elt F) → (⟨S8x4096, .i32⟩ : BufTy).Contents (Elt F) → (⟨S8x4096, .i1⟩ : BufTy).Contents (Elt F)),
    unary main_v2 main_v3 ((extui 32 · natLt_1_32) : (⟨S8x4096, .i1⟩ : BufTy).Contents (Elt F) → (⟨S8x4096, .i32⟩ : BufTy).Contents (Elt F)),
    reshape main_v3 main_v4 rfl shapeCasts_S8x4096_S32768,
    TRef.nullary main_call0.call0.c (constantI S_ 32 0#32),
    TRef.unary main_call0.call0.c main_call0.call0.v0 (broadcastInDim S_ ![] bcast_S_S_),
    TRef.binary (.of main_v4) main_call0.call0.v0 main_call0.call0.v1 (fun x v => Host.reduceWindow IntOp.addi ![32768] ![1] ![32767] ![0] x v reduceWindows_S32768_S32768_w32768s1p32767_0 h_S_),
    binary main_v5 main_v4 main_v6 (subi : (⟨S32768, .i32⟩ : BufTy).Contents (Elt F) → (⟨S32768, .i32⟩ : BufTy).Contents (Elt F) → (⟨S32768, .i32⟩ : BufTy).Contents (Elt F)),
    unary main_arg1 main_v7 ((extractStridedSlice S8x1 ![0, 4095] · slices_S8x4096_S8x1_0_4095) : (⟨S8x4096, .i32⟩ : BufTy).Contents (Elt F) → (⟨S8x1, .i32⟩ : BufTy).Contents (Elt F)),
    reshape main_v7 main_v8 rfl shapeCasts_S8x1_S8,
    nullary main_c_0 (constantI S_ 32 1#32),
    unary main_c_0 main_v9 (broadcastInDim S8 ![] bcast_S_S8 : (⟨S_, .i32⟩ : BufTy).Contents (Elt F) → (⟨S8, .i32⟩ : BufTy).Contents (Elt F)),
    binary main_v8 main_v9 main_v10 (cmpi .eq : (⟨S8, .i32⟩ : BufTy).Contents (Elt F) → (⟨S8, .i32⟩ : BufTy).Contents (Elt F) → (⟨S8, .i1⟩ : BufTy).Contents (Elt F)),
    unary main_v10 main_v11 ((extui 32 · natLt_1_32) : (⟨S8, .i1⟩ : BufTy).Contents (Elt F) → (⟨S8, .i32⟩ : BufTy).Contents (Elt F)),
    TRef.nullary main_call1.call0.c (constantI S_ 32 0#32),
    TRef.unary main_call1.call0.c main_call1.call0.v0 (broadcastInDim S_ ![] bcast_S_S_),
    TRef.binary (.of main_v11) main_call1.call0.v0 main_call1.call0.v1 (fun x v => Host.reduceWindow IntOp.addi ![8] ![1] ![7] ![0] x v reduceWindows_S8_S8_w8s1p7_0 h_S_),
    binary main_v12 main_v11 main_v13 (subi : (⟨S8, .i32⟩ : BufTy).Contents (Elt F) → (⟨S8, .i32⟩ : BufTy).Contents (Elt F) → (⟨S8, .i32⟩ : BufTy).Contents (Elt F)),
    reshape main_v6 main_v14 rfl shapeCasts_S32768_S8x4096,
    unary main_v13 main_v15 (broadcastInDim S8x1 ![0] bcast_S8_S8x1_0 : (⟨S8, .i32⟩ : BufTy).Contents (Elt F) → (⟨S8x1, .i32⟩ : BufTy).Contents (Elt F)),
    unary main_v15 main_v16 (broadcastInDim S8x4096 ![0, 1] bcast_S8x1_S8x4096_0_1 : (⟨S8x1, .i32⟩ : BufTy).Contents (Elt F) → (⟨S8x4096, .i32⟩ : BufTy).Contents (Elt F)),
    binary main_v14 main_v16 main_v17 (addi : (⟨S8x4096, .i32⟩ : BufTy).Contents (Elt F) → (⟨S8x4096, .i32⟩ : BufTy).Contents (Elt F) → (⟨S8x4096, .i32⟩ : BufTy).Contents (Elt F)),
    reshape main_v17 main_v18 rfl shapeCasts_S8x4096_S32768 ]

set_option maxRecDepth 1024 in
/-- @main is that straight line: the callees' bodies unfolded at the calls, sequencing reassociated. -/
theorem main_eq (c : Dev nD) : main (F := F) c = seq ops := by
  simp only [main, fn_cumsum.body, fn_cumsum_0.body, fn_cumsum_1.body, fn_cumsum_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., unary_bufs_sub .., reshape_bufs_sub ..,
    nullary_bufs_sub .., unary_bufs_sub .., binary_bufs_sub ..,
    binary_bufs_sub .., unary_bufs_sub .., reshape_bufs_sub .., nullary_bufs_sub .., unary_bufs_sub .., binary_bufs_sub .., unary_bufs_sub ..,
    nullary_bufs_sub .., unary_bufs_sub .., binary_bufs_sub ..,
    binary_bufs_sub .., reshape_bufs_sub .., unary_bufs_sub .., unary_bufs_sub .., binary_bufs_sub .., reshape_bufs_sub ..⟩

/-- Every weakly fair execution of @main terminates with each TensorCore buffer at the operations' fold over
    the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold read at the results and at the arguments

The windowed sums are kept folded: each is a fold over the axis's positions at every index, and the equations
below only match the operations' terms against the specification's, never looking inside one. -/

attribute [local irreducible] Host.reduceWindow in
/-- The first result buffer holds the features read as rows. -/
theorem result_rows (V : Valuation τ sig (Elt F)) :
    (after ops V (main_v0 : DevRef τ sig) : S32768x1024.Idx → Elt F .f32) = Spec.rows (V (main_arg0 : DevRef τ sig)) := by
  after_results
  rfl

attribute [local irreducible] Host.reduceWindow in
/-- The second result buffer holds the segment ids of the labels. -/
theorem result_ids (V : Valuation τ sig (Elt F)) :
    (after ops V (main_v18 : DevRef τ sig) : S32768.Idx → BitVec 32) = Spec.segmentIds (V (main_arg1 : DevRef τ sig)) := by
  after_results
  simp only [TRef.ofBuf, TRef.toBuf, cast_eq]
  rfl

/-- No operation writes an argument buffer. -/
theorem kept_arg0 (V : Valuation τ sig (Elt F)) : after ops V (main_arg0 : DevRef τ sig) = V (main_arg0 : DevRef τ sig) := by
  after_results
theorem kept_arg1 (V : Valuation τ sig (Elt F)) : after ops V (main_arg1 : DevRef τ sig) = V (main_arg1 : DevRef τ sig) := by
  after_results

/-- The reference's run: both results as the specification's functions of the launched arguments, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = Spec.rows (m ((c.tc : Thread nD τ).loc main_arg0))
      ∧ r.2.mem ((c.tc : Thread nD τ).loc main_v18) = Spec.segmentIds (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (result_rows (launchContents m c)),
      (h c main_v18).trans (result_ids (launchContents m c)),
      (h c main_arg0).trans (kept_arg0 (launchContents m c)),
      (h c main_arg1).trans (kept_arg1 (launchContents m c))⟩)
    (run_fold m ρ)

end Cert.ReferenceIdeal.Hand

end
-- ==== Proof.lean ====
/-
  The kernel copies the features, read as 32768 rows of 1024 channels, block by block through a pipelined
  region, and computes the segment ids from the labels with host operations after it; the reference reshapes
  the features and computes the segment ids with the same host operations. Both programs therefore end with
  `Spec.rows` of the features and `Spec.segmentIds` of the labels (Proof/Spec.lean): the kernel's by its frame
  run read block by block (Proof/KernelBlocks.lean) and the fold of the operations after the region
  (Proof/KernelRun.lean), the reference's by the fold of its straight line (Proof/RefRun.lean). No arithmetic on
  the float values takes place, so the precondition is never used; the ideal pass rewrote nothing, so
  `preserves` has no conjunct.
-/
import proofs.«120818_j79723182949008_1_alg».proof.Defs
import proofs.«120818_j79723182949008_1_alg».proof.Proof.Gen.Kernel
import proofs.«120818_j79723182949008_1_alg».proof.Proof.Gen.Kernel.Skeleton
import proofs.«120818_j79723182949008_1_alg».proof.Proof.Gen.Kernel.Launch
import proofs.«120818_j79723182949008_1_alg».proof.Proof.Gen.Kernel.Points
import proofs.«120818_j79723182949008_1_alg».proof.Proof.Gen.Kernel.Frame
import proofs.«120818_j79723182949008_1_alg».proof.Proof.Gen.KernelIdeal
import proofs.«120818_j79723182949008_1_alg».proof.Proof.Gen.KernelIdeal.Skeleton
import proofs.«120818_j79723182949008_1_alg».proof.Proof.Gen.KernelIdeal.Launch
import proofs.«120818_j79723182949008_1_alg».proof.Proof.Gen.KernelIdeal.Points
import proofs.«120818_j79723182949008_1_alg».proof.Proof.Gen.KernelIdeal.Frame
import proofs.«120818_j79723182949008_1_alg».proof.Proof.Gen.ReferenceIdeal
import proofs.«120818_j79723182949008_1_alg».proof.Proof.Gen.Pre_finite_inputs
import proofs.«120818_j79723182949008_1_alg».proof.Proof.KernelRun
import proofs.«120818_j79723182949008_1_alg».proof.Proof.RefRun
import Idealize.ShloMosaic.Adequacy
import Idealize.ShloMosaic.Init

noncomputable section

namespace Cert.Proof

open Idealize.ShloMosaic Idealize.SL.Sem

/-- The word-level kernel program runs and keeps its arguments: its generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run with the results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Hand.run (F := Ideal) m ρ)

/-- From memories that agree on the arguments both programs end with the features read as rows and the segment
    ids of the labels. -/
theorem algebraic : Cert.algebraic_KernelIdeal_ReferenceIdeal := by
  intro m ρ m' ρ' _ hagree
  refine ⟨fun c => Cert.Spec.rows (m ((c.tc : Thread Cert.KernelIdeal.nD Cert.KernelIdeal.τ).loc Cert.KernelIdeal.main_arg0)),
    fun c => Cert.Spec.segmentIds (m ((c.tc : Thread Cert.KernelIdeal.nD Cert.KernelIdeal.τ).loc Cert.KernelIdeal.main_arg1)),
    Cert.KernelIdeal.Hand.run (F := Ideal) m ρ, ?_⟩
  refine (θ_run Cert.ReferenceIdeal.defs _ _).mono (fun _ h c => ?_) (Cert.ReferenceIdeal.Hand.run (F := Ideal) m' ρ')
  obtain ⟨h0, h1, h2, h3⟩ := h c
  refine ⟨h0.trans ?_, h1.trans ?_, h2, h3⟩
  · rw [(hagree c).1]
  · rw [(hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
